-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x8192 : Shape := ⟨3, ![8, 1, 8192]⟩
abbrev S8192x8192 : Shape := ⟨2, ![8192, 8192]⟩
abbrev S_ : Shape := ⟨0, ![]⟩

class Facts : Prop where
  bcast_S_S8x1x8192 : S_.BroadcastsInDim S8x1x8192 (![] : Fin 0 → Fin S8x1x8192.rank)
  reducesTo_S8x1x8192_S_d0_1_2 : S8x1x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8x1x8192 1) : IVec S_ 1 :=
  let main_c_5 : IVec S_ 1 := constantI S_ 1 1#1
  let main_v17 : IVec S_ 1 := (fun x v => Host.reduce IntOp.andi x v reducesTo_S8x1x8192_S_d0_1_2 h_S_) main_v16 main_c_5
  let main_v18 : IVec S_ 1 := andi main_v13 main_v17
  main_v18

def fn {F : FTy → Type} [FloatOps F] (main_arg0 : FVec F S8x1x8192 .f32) (main_arg1 : FVec F S8192x8192 .f32) (main_arg2 : FVec F S8x1x8192 .f32) (main_arg3 : FVec F S8x1x8192 .f32) : IVec S_ 1 :=
  let main_v0 : FVec F S8x1x8192 .f32 := Host.absf main_arg0
  let main_cst : FVec F S_ .f32 := constant S_ .f32 0x7F800000#32
  let main_v1 : FVec F S8x1x8192 .f32 := broadcastInDim S8x1x8192 ![] bcast_S_S8x1x8192 main_cst
  let main_v2 : IVec S8x1x8192 1 := cmpf .olt main_v0 main_v1
  let main_c : IVec S_ 1 := constantI S_ 1 1#1
  let main_v3 : IVec S_ 1 := (fun x v => Host.reduce IntOp.andi x v reducesTo_S8x1x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8x1x8192 .f32 := Host.absf main_arg2
  let main_cst_2 : FVec F S_ .f32 := constant S_ .f32 0x7F800000#32
  let main_v10 : FVec F S8x1x8192 .f32 := broadcastInDim S8x1x8192 ![] bcast_S_S8x1x8192 main_cst_2
  let main_v11 : IVec S8x1x8192 1 := cmpf .olt main_v9 main_v10
  let main_c_3 : IVec S_ 1 := constantI S_ 1 1#1
  let main_v12 : IVec S_ 1 := (fun x v => Host.reduce IntOp.andi x v reducesTo_S8x1x8192_S_d0_1_2 h_S_) main_v11 main_c_3
  let main_v13 : IVec S_ 1 := andi main_v8 main_v12
  let main_v14 : FVec F S8x1x8192 .f32 := Host.absf main_arg3
  let main_cst_4 : FVec F S_ .f32 := constant S_ .f32 0x7F800000#32
  let main_v15 : FVec F S8x1x8192 .f32 := broadcastInDim S8x1x8192 ![] bcast_S_S8x1x8192 main_cst_4
  let main_v16 : IVec S8x1x8192 1 := cmpf .olt main_v14 main_v15
  fn_part1 (F := F) main_v13 main_v16
-- ==== Kernel.lean ====
abbrev S8x1x8192 : Shape := ⟨3, ![8, 1, 8192]⟩
abbrev S8192x8192 : Shape := ⟨2, ![8192, 8192]⟩
abbrev S8x8192 : Shape := ⟨2, ![8, 8192]⟩
abbrev S8x1024 : Shape := ⟨2, ![8, 1024]⟩
abbrev S1024x2048 : Shape := ⟨2, ![1024, 2048]⟩
abbrev S8x2048 : Shape := ⟨2, ![8, 2048]⟩

abbrev nBuf : Space → Nat
  | .hbm => 9
  | .vmem => 11
  | .smem => 0
  | _ => 0

abbrev bufTy : (tb : Table) → Fin (tcTables nBuf tb) → BufTy
  | .hbm, ⟨0, _⟩ => ⟨S8x1x8192, .f32⟩
  | .hbm, ⟨1, _⟩ => ⟨S8192x8192, .f32⟩
  | .hbm, ⟨2, _⟩ => ⟨S8x1x8192, .f32⟩
  | .hbm, ⟨3, _⟩ => ⟨S8x1x8192, .f32⟩
  | .hbm, ⟨4, _⟩ => ⟨S8x8192, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S8x1x8192, .f32⟩
  | .local _ .vmem, ⟨0, _⟩ => ⟨S8x1024, .f32⟩
  | .local _ .vmem, ⟨1, _⟩ => ⟨S8x1024, .f32⟩
  | .local _ .vmem, ⟨2, _⟩ => ⟨S1024x2048, .f32⟩
  | .local _ .vmem, ⟨3, _⟩ => ⟨S1024x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | _, _ => ⟨S8x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1x8192_S8x8192 : S8x1x8192.ShapeCasts S8x8192
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S8x8192_S8x1x8192 : S8x8192.ShapeCasts S8x1x8192
  dot_S8x1024_S1024x2048_S8x2048_1_0_0_1_n_n_wf : DotDims.WF S8x1024 S1024x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x8192.size a
  hwx0_0 : ∀ i : grid0.Coords, EltTy.bits .f32 = 32 ∨ (Rect.block (s := S8x8192) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x8192.size a
  hwx0_2 : ∀ i : grid0.Coords, EltTy.bits .f32 = 32 ∨ (Rect.block (s := S8x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S8x8192.size a
  hwx0_3 : ∀ i : grid0.Coords, EltTy.bits .f32 = 32 ∨ (Rect.block (s := S8x8192) S8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S8x8192.size a
  hwx0_4 : ∀ i : grid0.Coords, EltTy.bits .f32 = 32 ∨ (Rect.block (s := S8x8192) S8x2048.size (cc0_transform_4 i) (hinb0_4 i)).WholeWords (EltTy.packing .f32)

variable [Facts₀]

def dot_S8x1024_S1024x2048_S8x2048_1_0_0_1_n_n : DotDims S8x1024 S1024x2048 S8x2048 where
  lhsContracting := [1]
  rhsContracting := [0]
  lhsNonContracting := [0]
  rhsNonContracting := [1]
  lhsBatch := []
  rhsBatch := []
  wf := dot_S8x1024_S1024x2048_S8x2048_1_0_0_1_n_n_wf

abbrev win0_0 : Pipeline.Window sig grid0 :=
  Pipeline.Window.ofSpec (Memref.whole main_v0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1x8192 : Shape := ⟨3, ![8, 1, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x1x8192, .f32⟩
  | .hbm, ⟨1, _⟩ => ⟨S8192x8192, .f32⟩
  | .hbm, ⟨2, _⟩ => ⟨S8x1x8192, .f32⟩
  | .hbm, ⟨3, _⟩ => ⟨S8x1x8192, .f32⟩
  | .hbm, ⟨4, _⟩ => ⟨S8x1x8192, .f32⟩
  | .hbm, ⟨5, _⟩ => ⟨S8x1x8192, .f32⟩
  | .hbm, ⟨6, _⟩ => ⟨S8x1x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x1x8192, .f32⟩
  | .hbm, ⟨11, _⟩ => ⟨S8x1x8192, .f32⟩
  | .hbm, ⟨12, _⟩ => ⟨S_, .f32⟩
  | .hbm, ⟨13, _⟩ => ⟨S8x1x8192, .f32⟩
  | .hbm, ⟨14, _⟩ => ⟨S8x1x8192, .f32⟩
  | _, _ => ⟨S8x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩

abbrev nD : Nat := 1
abbrev τ : Topo := Topo.v7x

variable {F : FTy → Type} [FloatOps F]

class Facts₀ : Prop where
  bcast_S_S8x1x8192 : S_.BroadcastsInDim S8x1x8192 (![] : Fin 0 → Fin S8x1x8192.rank)
  dot_S8x1x8192_S8192x8192_S8x1x8192_2_0_01_1_n_n_wf : DotDims.WF S8x1x8192 S8192x8192 S8x1x8192 [2] [0] [0, 1] [1] [] []

variable [Facts₀]

def dot_S8x1x8192_S8192x8192_S8x1x8192_2_0_01_1_n_n : DotDims S8x1x8192 S8192x8192 S8x1x8192 where
  lhsContracting := [2]
  rhsContracting := [0]
  lhsNonContracting := [0, 1]
  rhsNonContracting := [1]
  lhsBatch := []
  rhsBatch := []
  wf := dot_S8x1x8192_S8192x8192_S8x1x8192_2_0_01_1_n_n_wf

class Facts : Prop extends Facts₀ where

variable [Facts]
-- ==== Proof.Pieces.lean ====
/-
  What each control case of the idealized kernel's body leaves behind, as a pure term of the values it reads.

  The body keeps a running sum in a scratch buffer across the grid's second axis. At a point whose second coordinate is zero
  it first stores the zero block and then adds the point's matrix product to what it reads back; at every other point it adds
  the product to what the point before left; and at a point whose second coordinate is the last, after that update, it reads
  the scratch once more and stores the clamped epilogue of it into the output block. Each lemma here says that the contents
  the frame's run found for the scratch (or the output block) is the body's arithmetic — the update `acc + lhs · rhs`, or the
  epilogue of the updated scratch — applied to the whole buffers the body loads.
-/
import proofs.«139223_j43035572306630_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Carried

open Cert.KernelIdeal Cert.KernelIdeal.Gen

variable {F : FTy → Type} [FloatOps F]

/-- Every load and store of the body is at offset zero of a whole buffer. -/
theorem hz : (![0, 0] : Fin 2 → Nat) = fun _ => 0 := funext fun a => by fin_cases a <;> rfl

/-- A middle point of a run: the scratch ends at the update of what the point before left. -/
theorem scratch_B (c : Dev nD) (i : grid0.Coords) (a2 : Memref sig .tc .vmem S8x1024 .f32) (h2 : a2.IsWhole) (a3 : Memref sig .tc .vmem S1024x2048 .f32) (h3 : a3.IsWhole) (a4 : Memref sig .tc .vmem S8x2048 .f32) (h4 : a4.IsWhole) (a5 : Memref sig .tc .vmem S8x2048 .f32) (h5 : a5.IsWhole) (a6 : Memref sig .tc .vmem S8x2048 .f32) (h6 : a6.IsWhole) (a7 : Memref sig .tc .vmem S8x2048 .f32) (h7 : a7.IsWhole) (hc0 : ¬cond0_0 i) (hc1 : ¬cond0_1 i)
    (x0 : Vec F S8x1024 .f32) (x1 : Vec F S1024x2048 .f32) (x2 : Vec F S8x2048 .f32) (x3 : Vec F S8x2048 .f32) (xs0 : Vec F S8x2048 .f32) :
    sout0_B_0 c i a2 h2 a3 h3 a4 h4 a5 h5 a6 h6 a7 h7 hc0 hc1 x0 x1 x2 x3 xs0 = k0_pay2 x0 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h7.read_unread, View.ld_unit_zero (S := S8x1024) hz,
    View.ld_unit_zero (S := S1024x2048) hz, View.ld_unit_zero (S := S8x2048) hz]

/-- The first point of a run: the zero block is stored, read back, and updated. -/
theorem scratch_A (c : Dev nD) (i : grid0.Coords) (a2 : Memref sig .tc .vmem S8x1024 .f32) (h2 : a2.IsWhole) (a3 : Memref sig .tc .vmem S1024x2048 .f32) (h3 : a3.IsWhole) (a4 : Memref sig .tc .vmem S8x2048 .f32) (h4 : a4.IsWhole) (a5 : Memref sig .tc .vmem S8x2048 .f32) (h5 : a5.IsWhole) (a6 : Memref sig .tc .vmem S8x2048 .f32) (h6 : a6.IsWhole) (a7 : Memref sig .tc .vmem S8x2048 .f32) (h7 : a7.IsWhole) (hc0 : cond0_0 i) (hc1 : ¬cond0_1 i)
    (x0 : Vec F S8x1024 .f32) (x1 : Vec F S1024x2048 .f32) (x2 : Vec F S8x2048 .f32) (x3 : Vec F S8x2048 .f32) :
    sout0_A_0 c i a2 h2 a3 h3 a4 h4 a5 h5 a6 h6 a7 h7 hc0 hc1 x0 x1 x2 x3 = k0_pay2 x0 x1 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S8x2048) hz, View.readCov_unit_zero (S := S8x2048) _ hz]
  simp only [View.readAt_eq_ld, h2.read_unread, h3.read_unread, View.ld_unit_zero (S := S8x1024) hz,
    View.ld_unit_zero (S := S1024x2048) hz, View.ld_unit_zero (S := S8x2048) hz]

/-- The last point of a run: the scratch is updated as at a middle point, -/
theorem scratch_C (c : Dev nD) (i : grid0.Coords) (a2 : Memref sig .tc .vmem S8x1024 .f32) (h2 : a2.IsWhole) (a3 : Memref sig .tc .vmem S1024x2048 .f32) (h3 : a3.IsWhole) (a4 : Memref sig .tc .vmem S8x2048 .f32) (h4 : a4.IsWhole) (a5 : Memref sig .tc .vmem S8x2048 .f32) (h5 : a5.IsWhole) (a6 : Memref sig .tc .vmem S8x2048 .f32) (h6 : a6.IsWhole) (a7 : Memref sig .tc .vmem S8x2048 .f32) (h7 : a7.IsWhole) (hc0 : ¬cond0_0 i) (hc1 : cond0_1 i)
    (x0 : Vec F S8x1024 .f32) (x1 : Vec F S1024x2048 .f32) (x2 : Vec F S8x2048 .f32) (x3 : Vec F S8x2048 .f32) (xs0 : Vec F S8x2048 .f32) :
    sout0_C_0 c i a2 h2 a3 h3 a4 h4 a5 h5 a6 h6 a7 h7 hc0 hc1 x0 x1 x2 x3 xs0 = k0_pay2 x0 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S8x1024) hz,
    View.ld_unit_zero (S := S1024x2048) hz, View.ld_unit_zero (S := S8x2048) hz]

/-- and the output block is the epilogue of the UPDATED scratch, of the block of the window the body loads second (window 3)
    and of the block it loads third (window 2). -/
theorem out_C (c : Dev nD) (i : grid0.Coords) (a2 : Memref sig .tc .vmem S8x1024 .f32) (h2 : a2.IsWhole) (a3 : Memref sig .tc .vmem S1024x2048 .f32) (h3 : a3.IsWhole) (a4 : Memref sig .tc .vmem S8x2048 .f32) (h4 : a4.IsWhole) (a5 : Memref sig .tc .vmem S8x2048 .f32) (h5 : a5.IsWhole) (a6 : Memref sig .tc .vmem S8x2048 .f32) (h6 : a6.IsWhole) (a7 : Memref sig .tc .vmem S8x2048 .f32) (h7 : a7.IsWhole) (hc0 : ¬cond0_0 i) (hc1 : cond0_1 i)
    (x0 : Vec F S8x1024 .f32) (x1 : Vec F S1024x2048 .f32) (x2 : Vec F S8x2048 .f32) (x3 : Vec F S8x2048 .f32) (xs0 : Vec F S8x2048 .f32) :
    out0_C_4 c i a2 h2 a3 h3 a4 h4 a5 h5 a6 h6 a7 h7 hc0 hc1 x0 x1 x2 x3 xs0 = k0_pay3 (k0_pay2 x0 x1 xs0) x3 x2 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.readCov_unit_zero (S := S8x2048) _ hz, View.ld_unit_zero (S := S8x1024) hz,
    View.ld_unit_zero (S := S1024x2048) hz, View.ld_unit_zero (S := S8x2048) hz]

end Cert.KernelIdeal.Carried

end
-- ==== Proof.Contraction.lean ====
/-
  The mathematics of the certificate, free of either program.

  For a left operand `pre` of shape [8, 1, 8192], a matrix `w` of shape [8192, 8192] and two more arrays `thr`, `cst` of the
  left operand's shape, the result at row `b` and column `n` is

      min c (max 0 ((∑ x < 8192, pre (b, 0, x) · w (x, n)) + cst (b, 0, n) − thr (b, 0, n)))

  on the extended reals, `c` the binary value of the f32 word 0x3F666666 and `0` that of the zero word.

  One side computes the contraction as ONE sum over the 8192 terms; the other adds it up in eight consecutive runs of 1024
  terms, starting from zero. The extended reals are a commutative additive monoid, so a sum over the first `K + 1024`
  naturals is the sum over the first `K` plus the sum over the next 1024 (`prefixSum_add_block`), the empty prefix is zero
  (`prefixSum_zero`), and the prefix of length 8192 is the whole contraction (`prefixSum_all`). No finiteness is used: only
  commutativity and associativity of `+`, which hold at the infinities too.
-/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Contraction

open Idealize.ShloMosaic Idealize.ShloMosaic.ValueIdx

/-- The shapes the statement is over: the left operand flattened to [8, 8192], the matrix, and the rank-3 arrays. -/
abbrev Flat : Shape := ⟨2, ![8, 8192]⟩
abbrev Mat : Shape := ⟨2, ![8192, 8192]⟩
abbrev Cube : Shape := ⟨3, ![8, 1, 8192]⟩

/-- Term `x` of the contraction for row `b` and column `n` over a flattened left operand; zero past the contracted extent,
    so that a prefix of any length is a sum over naturals. -/
def term (a : Flat.Idx → EReal) (w : Mat.Idx → EReal) (b : Fin 8) (n : Fin 8192) (x : ℕ) : EReal :=
  if h : x < 8192 then a (ix2 b ⟨x, h⟩) * w (ix2 ⟨x, h⟩ n) else 0

/-- The sum of the first `K` terms. -/
def prefixSum (a : Flat.Idx → EReal) (w : Mat.Idx → EReal) (b : Fin 8) (n : Fin 8192) (K : ℕ) : EReal :=
  ∑ x ∈ Finset.range K, term a w b n x

theorem prefixSum_zero (a : Flat.Idx → EReal) (w : Mat.Idx → EReal) (b : Fin 8) (n : Fin 8192) :
    prefixSum a w b n 0 = 0 := Finset.sum_range_zero _

/-- A prefix extended by one run of 1024 terms. -/
theorem prefixSum_add_block (a : Flat.Idx → EReal) (w : Mat.Idx → EReal) (b : Fin 8) (n : Fin 8192) (K : ℕ) :
    prefixSum a w b n (K + 1024) = prefixSum a w b n K + ∑ j : Fin 1024, term a w b n (K + j.val) := by
  unfold prefixSum
  rw [Finset.sum_range_add, Finset.sum_range (fun x => term a w b n (K + x))]

/-- The prefix of all 8192 terms is the contraction. -/
theorem prefixSum_all (a : Flat.Idx → EReal) (w : Mat.Idx → EReal) (b : Fin 8) (n : Fin 8192) :
    prefixSum a w b n 8192 = ∑ x : Fin 8192, a (ix2 b x) * w (ix2 x n) := by
  unfold prefixSum
  rw [Finset.sum_range]
  refine Finset.sum_congr rfl fun x _ => ?_
  unfold term
  rw [dif_pos x.isLt]

/-- A term inside the extent, at the natural `K + j`. -/
theorem term_of_lt (a : Flat.Idx → EReal) (w : Mat.Idx → EReal) (b : Fin 8) (n : Fin 8192) (x : ℕ) (h : x < 8192) :
    term a w b n x = a (ix2 b ⟨x, h⟩) * w (ix2 ⟨x, h⟩ n) := dif_pos h

/-- The clamp both programs end with: between the zero word's value and the value of 0x3F666666. -/
def clamp (v : EReal) : EReal :=
  min (Ideal.ofBits .f32 0x3F666666#32) (max (Ideal.ofBits .f32 0x00000000#32) v)

/-- The result over the FLATTENED arrays, at an index of [8, 8192]: what the kernel's region leaves in its output array. -/
def flatResult (a : Flat.Idx → EReal) (w : Mat.Idx → EReal) (thr cst : Flat.Idx → EReal) : Flat.Idx → EReal :=
  fun j => clamp (prefixSum a w (j 0) (j 1) 8192 + cst j - thr j)

/-- The result over the rank-3 arrays, at row `b` and column `n`. -/
def resultAt (pre : Cube.Idx → EReal) (w : Mat.Idx → EReal) (thr cst : Cube.Idx → EReal) (b : Fin 8) (n : Fin 8192) : EReal :=
  clamp ((∑ x : Fin 8192, pre (ix3 b 0 x) * w (ix2 x n)) + cst (ix3 b 0 n) - thr (ix3 b 0 n))

/-- THE RESULT: one function of the four argument arrays, index by index. -/
def result (pre : Cube.Idx → EReal) (w : Mat.Idx → EReal) (thr cst : Cube.Idx → EReal) : Cube.Idx → EReal :=
  fun i => resultAt pre w thr cst (i 0) (i 2)

/-- The flattened result of flattened arrays is the result: when `a`, `thr2`, `cst2` read the rank-3 arrays at `(b, 0, ·)`. -/
theorem flatResult_eq (pre : Cube.Idx → EReal) (w : Mat.Idx → EReal) (thr cst : Cube.Idx → EReal)
    (a thr2 cst2 : Flat.Idx → EReal)
    (ha : ∀ (b : Fin 8) (x : Fin 8192), a (ix2 b x) = pre (ix3 b 0 x))
    (ht : ∀ (b : Fin 8) (n : Fin 8192), thr2 (ix2 b n) = thr (ix3 b 0 n))
    (hc : ∀ (b : Fin 8) (n : Fin 8192), cst2 (ix2 b n) = cst (ix3 b 0 n))
    (b : Fin 8) (n : Fin 8192) :
    flatResult a w thr2 cst2 (ix2 b n) = resultAt pre w thr cst b n := by
  unfold flatResult resultAt
  rw [show ((ix2 b n : Flat.Idx) 0) = b from rfl, show ((ix2 b n : Flat.Idx) 1) = n from rfl, prefixSum_all, ht, hc]
  simp only [ha]

end Cert.Contraction

end
-- ==== Proof.Payload.lean ====
/-
  The idealized kernel's arithmetic read at one index, on the extended reals.

  The body's three stored values: the reset stores zero everywhere; the update stores, at row `p` and column `q` of the
  scratch block, what it read there plus the sum over the 1024 contracted positions `j` of `lhs (p, j) · rhs (j, q)` (the
  rounding of both operands to a narrower format before the product is the identity on the extended reals, and a matrix
  product into a zero accumulator is the plain sum); the epilogue stores the clamp of `acc + cst − thr`, index by index.
-/
import proofs.«139223_j43035572306630_1_alg».proof.Proof.Gen.KernelIdeal.Skeleton
import proofs.«139223_j43035572306630_1_alg».proof.Proof.Contraction
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Arith

open Cert.KernelIdeal Cert.KernelIdeal.Gen Cert.Contraction

/-- The left operand's index of the product at output index `i` and contracted position `q`: row `i 0`, -/
theorem lhs_row (i : S8x2048.Idx) (q : dot_S8x1024_S1024x2048_S8x2048_1_0_0_1_n_n.contr.Idx) :
    (dot_S8x1024_S1024x2048_S8x2048_1_0_0_1_n_n.lhsIdx i q 0).val = (i 0).val := by
  unfold DotDims.lhsIdx
  rw [dif_neg (show ¬(0 : Fin S8x1024.rank) ∈ dot_S8x1024_S1024x2048_S8x2048_1_0_0_1_n_n.lhsBatch by decide), dif_pos (show (0 : Fin S8x1024.rank) ∈ dot_S8x1024_S1024x2048_S8x2048_1_0_0_1_n_n.lhsNonContracting by decide)]
  rfl
/-- column the contracted position; -/
theorem lhs_col (i : S8x2048.Idx) (q : dot_S8x1024_S1024x2048_S8x2048_1_0_0_1_n_n.contr.Idx) :
    (dot_S8x1024_S1024x2048_S8x2048_1_0_0_1_n_n.lhsIdx i q 1).val = (q ⟨0, by decide⟩).val :=
  dot_S8x1024_S1024x2048_S8x2048_1_0_0_1_n_n.lhsIdx_val_of_single rfl i q
/-- the right operand's: row the contracted position, -/
theorem rhs_row (i : S8x2048.Idx) (q : dot_S8x1024_S1024x2048_S8x2048_1_0_0_1_n_n.contr.Idx) :
    (dot_S8x1024_S1024x2048_S8x2048_1_0_0_1_n_n.rhsIdx i q 0).val = (q ⟨0, by decide⟩).val :=
  dot_S8x1024_S1024x2048_S8x2048_1_0_0_1_n_n.rhsIdx_val_of_single rfl i q
/-- column `i 1`. -/
theorem rhs_col (i : S8x2048.Idx) (q : dot_S8x1024_S1024x2048_S8x2048_1_0_0_1_n_n.contr.Idx) :
    (dot_S8x1024_S1024x2048_S8x2048_1_0_0_1_n_n.rhsIdx i q 1).val = (i 1).val := by
  unfold DotDims.rhsIdx
  rw [dif_neg (show ¬(1 : Fin S1024x2048.rank) ∈ dot_S8x1024_S1024x2048_S8x2048_1_0_0_1_n_n.rhsBatch by decide), dif_pos (show (1 : Fin S1024x2048.rank) ∈ dot_S8x1024_S1024x2048_S8x2048_1_0_0_1_n_n.rhsNonContracting by decide)]
  rfl

/-- The block product into a zero accumulator, at row `p` and column `q`: the sum over the 1024 contracted positions. -/
theorem product_apply (l : FVec Ideal S8x1024 .bf16) (r : FVec Ideal S1024x2048 .bf16) (p : Fin 8) (q : Fin 2048) :
    matmul dot_S8x1024_S1024x2048_S8x2048_1_0_0_1_n_n none l r (constant S8x2048 .f32 0x00000000#32) (ix2 p q)
      = ∑ j : Fin 1024, l (ix2 p j) * r (ix2 j q) := by
  show FloatOps.matmul dot_S8x1024_S1024x2048_S8x2048_1_0_0_1_n_n none l r (constant S8x2048 .f32 0x00000000#32) (ix2 p q) = _
  rw [Ideal.matmul_constant_zero_apply, ← Equiv.sum_comp (ValueIdx.contrEquiv1 dot_S8x1024_S1024x2048_S8x2048_1_0_0_1_n_n 1024 rfl rfl).symm]
  refine Finset.sum_congr rfl fun k _ => ?_
  have hk := ValueIdx.contrEquiv1_symm_val dot_S8x1024_S1024x2048_S8x2048_1_0_0_1_n_n 1024 rfl rfl k
  have el : dot_S8x1024_S1024x2048_S8x2048_1_0_0_1_n_n.lhsIdx (ix2 p q) ((ValueIdx.contrEquiv1 dot_S8x1024_S1024x2048_S8x2048_1_0_0_1_n_n 1024 rfl rfl).symm k) = ix2 p k := funext fun a => Fin.ext (by
    match a with
    | ⟨0, _⟩ => exact lhs_row _ _
    | ⟨1, _⟩ => exact (lhs_col _ _).trans hk)
  have er : dot_S8x1024_S1024x2048_S8x2048_1_0_0_1_n_n.rhsIdx (ix2 p q) ((ValueIdx.contrEquiv1 dot_S8x1024_S1024x2048_S8x2048_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The reset stores zero. -/
theorem reset_apply (j : S8x2048.Idx) : k0_pay1 (F := Ideal) j = 0 := by
  unfold k0_pay1
  simp only [shapeCast_self]
  show Ideal.ofBits .f32 0x00000000#32 = 0
  exact Ideal.ofBits_zero_f32

/-- The update at row `p`, column `q`: what was there plus the block product. -/
theorem update_apply (lhs : Vec Ideal S8x1024 .f32) (rhs : Vec Ideal S1024x2048 .f32) (acc : Vec Ideal S8x2048 .f32)
    (p : Fin 8) (q : Fin 2048) :
    k0_pay2 (F := Ideal) lhs rhs acc (ix2 p q) = acc (ix2 p q) + ∑ j : Fin 1024, lhs (ix2 p j) * rhs (ix2 j q) := by
  unfold k0_pay2
  simp only [shapeCast_self]
  rw [addf_apply, product_apply]
  rfl

/-- The epilogue, index by index: the clamp of `acc + cst − thr`. -/
theorem epilogue_apply (acc cst thr : Vec Ideal S8x2048 .f32) (j : S8x2048.Idx) :
    k0_pay3 (F := Ideal) acc cst thr j = clamp (acc j + cst j - thr j) := by
  unfold k0_pay3 clamp
  simp only [shapeCast_self]
  rfl

end Cert.KernelIdeal.Arith

end
-- ==== Proof.Running.lean ====
/-
  The scratch across the grid: after every point it holds a prefix of the contraction.

  The grid is 4 × 8, its second axis the faster: point `n` has first coordinate `n / 8` (which 2048-column tile of the output) and
  second coordinate `n % 8` (which 1024-term run of the contraction). At point `n` the body sees rows 0–7 and columns
  `1024 (n % 8) …` of the flattened left operand, rows `1024 (n % 8) …` and columns `2048 (n / 8) …` of the matrix, and rows
  0–7, columns `2048 (n / 8) …` of the two arrays of the epilogue. So the block product at `(p, q)` is the run of 1024 terms of
  the contraction for row `p` and column `2048 (n / 8) + q` that starts at term `1024 (n % 8)` (`block_terms`), and by
  induction on the point the scratch after point `n` holds, at `(p, q)`, the sum of the first `1024 (n % 8 + 1)` terms
  (`scratch_after`): zero plus the first run at the first point of a tile, one more run at every later point. At the last
  point of a tile that is all 8192 terms, and the output block is the clamp of it plus `cst` minus `thr` (`block_out`).
-/
import proofs.«139223_j43035572306630_1_alg».proof.Proof.Pieces
import proofs.«139223_j43035572306630_1_alg».proof.Proof.Payload

noncomputable section

open Idealize.ShloMosaic Idealize.ShloMosaic.TcCoe Idealize.SL.Sem Idealize.ShloMosaic.ValueIdx
open scoped BigOperators

namespace Cert.KernelIdeal.Running

open Cert.KernelIdeal Cert.KernelIdeal.Gen Cert.Contraction

variable (m : (ℓ : Loc nD τ sig) → Buf (Elt Ideal) ℓ)

/-! ## The arrays the region finds, and the blocks a point sees, at their literal types -/

/-- The flattened left operand, the matrix, and the flattened arrays of the epilogue, as the region finds them. -/
abbrev lhsArr (c : Dev nD) : Vec Ideal S8x8192 .f32 := V m c main_v0
abbrev matArr (c : Dev nD) : Vec Ideal S8192x8192 .f32 := V m c main_arg1
abbrev thrArr (c : Dev nD) : Vec Ideal S8x8192 .f32 := V m c main_v1
abbrev cstArr (c : Dev nD) : Vec Ideal S8x8192 .f32 := V m c main_v2

/-- Their blocks at point `t`. -/
abbrev lhsBlk (c : Dev nD) (t : Fin cfg0.N) : Vec Ideal S8x1024 .f32 := iblk m c 0 t
abbrev matBlk (c : Dev nD) (t : Fin cfg0.N) : Vec Ideal S1024x2048 .f32 := iblk m c 1 t
abbrev thrBlk (c : Dev nD) (t : Fin cfg0.N) : Vec Ideal S8x2048 .f32 := iblk m c 2 t
abbrev cstBlk (c : Dev nD) (t : Fin cfg0.N) : Vec Ideal S8x2048 .f32 := iblk m c 3 t

/-- Which block of its array each window is on at point `t`, decided over the 32 points. -/
theorem where0 : ∀ t : Fin cfg0.N, win0_0.index t 0 = 0 ∧ win0_0.index t 1 = t.val % 8 :=
  (by decide +kernel : ∀ t : Fin grid0.N, win0_0.index t 0 = 0 ∧ win0_0.index t 1 = t.val % 8)
theorem where1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem where2 : ∀ t : Fin cfg0.N, win0_2.index t 0 = 0 ∧ win0_2.index t 1 = t.val / 8 :=
  (by decide +kernel : ∀ t : Fin grid0.N, win0_2.index t 0 = 0 ∧ win0_2.index t 1 = t.val / 8)
theorem where3 : ∀ t : Fin cfg0.N, win0_3.index t 0 = 0 ∧ win0_3.index t 1 = t.val / 8 :=
  (by decide +kernel : ∀ t : Fin grid0.N, win0_3.index t 0 = 0 ∧ win0_3.index t 1 = t.val / 8)

/-- The left operand's block at `(p, j)` is the array at `(p, x)`, `x = 1024 (t % 8) + j`. -/
theorem lhsBlk_apply (c : Dev nD) (t : Fin cfg0.N) (p : Fin 8) (j : Fin 1024) (x : Fin 8192)
    (hx : x.val = 1024 * (t.val % 8) + j.val) : lhsBlk m c t (ix2 p j) = lhsArr m c (ix2 p x) := by
  unfold lhsBlk lhsArr iblk
  rw [View.read_apply]
  show V m c main_v0 _ = V m c main_v0 _
  congr 1
  funext a
  apply Fin.ext
  match a with
  | ⟨0, _⟩ => show win0_0.index t 0 * 8 + 1 * p.val = p.val; rw [(where0 t).1]; omega
  | ⟨1, _⟩ => show win0_0.index t 1 * 1024 + 1 * j.val = x.val; rw [(where0 t).2, hx]; omega

/-- The matrix's block at `(j, q)` is the matrix at `(x, col)`, `x = 1024 (t % 8) + j`, `col = 2048 (t / 8) + q`. -/
theorem matBlk_apply (c : Dev nD) (t : Fin cfg0.N) (j : Fin 1024) (q : Fin 2048) (x col : Fin 8192)
    (hx : x.val = 1024 * (t.val % 8) + j.val) (hcol : col.val = 2048 * (t.val / 8) + q.val) :
    matBlk m c t (ix2 j q) = matArr m c (ix2 x col) := by
  unfold matBlk matArr iblk
  rw [View.read_apply]
  show V m c main_arg1 _ = V m c main_arg1 _
  congr 1
  funext a
  apply Fin.ext
  match a with
  | ⟨0, _⟩ => show win0_1.index t 0 * 1024 + 1 * j.val = x.val; rw [(where1 t).1, hx]; omega
  | ⟨1, _⟩ => show win0_1.index t 1 * 2048 + 1 * q.val = col.val; rw [(where1 t).2, hcol]; omega

/-- The blocks of the two arrays of the epilogue at `(p, q)` are the arrays at `(p, col)`. -/
theorem thrBlk_apply (c : Dev nD) (t : Fin cfg0.N) (p : Fin 8) (q : Fin 2048) (col : Fin 8192)
    (hcol : col.val = 2048 * (t.val / 8) + q.val) : thrBlk m c t (ix2 p q) = thrArr m c (ix2 p col) := by
  unfold thrBlk thrArr iblk
  rw [View.read_apply]
  show V m c main_v1 _ = V m c main_v1 _
  congr 1
  funext a
  apply Fin.ext
  match a with
  | ⟨0, _⟩ => show win0_2.index t 0 * 8 + 1 * p.val = p.val; rw [(where2 t).1]; omega
  | ⟨1, _⟩ => show win0_2.index t 1 * 2048 + 1 * q.val = col.val; rw [(where2 t).2, hcol]; omega
theorem cstBlk_apply (c : Dev nD) (t : Fin cfg0.N) (p : Fin 8) (q : Fin 2048) (col : Fin 8192)
    (hcol : col.val = 2048 * (t.val / 8) + q.val) : cstBlk m c t (ix2 p q) = cstArr m c (ix2 p col) := by
  unfold cstBlk cstArr iblk
  rw [View.read_apply]
  show V m c main_v2 _ = V m c main_v2 _
  congr 1
  funext a
  apply Fin.ext
  match a with
  | ⟨0, _⟩ => show win0_3.index t 0 * 8 + 1 * p.val = p.val; rw [(where3 t).1]; omega
  | ⟨1, _⟩ => show win0_3.index t 1 * 2048 + 1 * q.val = col.val; rw [(where3 t).2, hcol]; omega

/-- The block product at `(p, q)` is the run of 1024 terms of the contraction from term `1024 (t % 8)`. -/
theorem block_terms (c : Dev nD) (t : Fin cfg0.N) (p : Fin 8) (q : Fin 2048) (col : Fin 8192)
    (hcol : col.val = 2048 * (t.val / 8) + q.val) :
    ∑ j : Fin 1024, lhsBlk m c t (ix2 p j) * matBlk m c t (ix2 j q)
      = ∑ j : Fin 1024, term (lhsArr m c) (matArr m c) p col (1024 * (t.val % 8) + j.val) := by
  refine Finset.sum_congr rfl fun j _ => ?_
  have hx : 1024 * (t.val % 8) + j.val < 8192 := by have := j.isLt; omega
  rw [term_of_lt _ _ _ _ _ hx, lhsBlk_apply m c t p j ⟨_, hx⟩ rfl, matBlk_apply m c t j q ⟨_, hx⟩ col rfl hcol]

/-! ## What each point leaves, over those names -/

/-- The first point of a tile leaves the update of the zero block; -/
theorem scratch_first (c : Dev nD) (t : Fin cfg0.N) (h0 : t.val % 8 = 0) (h1 : ¬t.val % 8 = 7) :
    (outsAt0 m c t.val t.isLt).2 = k0_pay2 (lhsBlk m c t) (matBlk m c t) (k0_pay1 (F := Ideal)) := by
  rw [outsAt0_A m c t h0 h1]
  dsimp only
  exact Carried.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)

/-- a middle point the update of what the point before left; -/
theorem scratch_middle (c : Dev nD) (t : Fin cfg0.N) (h0 : ¬t.val % 8 = 0) (h1 : ¬t.val % 8 = 7) :
    (outsAt0 m c t.val t.isLt).2
      = k0_pay2 (lhsBlk m c t) (matBlk m c t) (outsAt0 m c (t.val - 1) (Nat.lt_of_le_of_lt (Nat.sub_le _ _) t.isLt)).2 := by
  rw [outsAt0_B m c t h0 h1]
  dsimp only
  exact Carried.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2

/-- the last point of a tile the same, -/
theorem scratch_last (c : Dev nD) (t : Fin cfg0.N) (h0 : ¬t.val % 8 = 0) (h1 : t.val % 8 = 7) :
    (outsAt0 m c t.val t.isLt).2
      = k0_pay2 (lhsBlk m c t) (matBlk m c t) (outsAt0 m c (t.val - 1) (Nat.lt_of_le_of_lt (Nat.sub_le _ _) t.isLt)).2 := by
  rw [outsAt0_C m c t h0 h1]
  dsimp only
  exact Carried.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2

/-- and, in the output block, the epilogue of the scratch it has just updated. -/
theorem out_last (c : Dev nD) (t : Fin cfg0.N) (h0 : ¬t.val % 8 = 0) (h1 : t.val % 8 = 7) :
    (outsAt0 m c t.val t.isLt).1 = k0_pay3 (outsAt0 m c t.val t.isLt).2 (cstBlk m c t) (thrBlk m c t) := by
  rw [scratch_last m c t h0 h1, outsAt0_C m c t h0 h1]
  dsimp only
  exact Carried.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) (outsAt0 m c (t.val - 1) (Nat.lt_of_le_of_lt (Nat.sub_le _ _) t.isLt)).2

/-! ## The invariant -/

/-- After point `n` the scratch holds, at `(p, q)`, the first `1024 (n % 8 + 1)` terms of the contraction for row `p` and column
    `col = 2048 (n / 8) + q`. -/
theorem scratch_after (c : Dev nD) : ∀ (n : ℕ) (h : n < cfg0.N) (p : Fin 8) (q : Fin 2048) (col : Fin 8192),
    col.val = 2048 * (n / 8) + q.val →
    (outsAt0 m c n h).2 (ix2 p q) = prefixSum (lhsArr m c) (matArr m c) p col (1024 * (n % 8 + 1)) := by
  intro n
  induction n with
  | zero =>
    intro h p q col hcol
    rw [scratch_first m c ⟨0, h⟩ rfl (by show ¬(0 % 8 = 7); decide), Arith.update_apply, Arith.reset_apply,
      block_terms m c ⟨0, h⟩ p q col hcol, show 1024 * (0 % 8 + 1) = 0 + 1024 from rfl, prefixSum_add_block, prefixSum_zero]
    rfl
  | succ n ih =>
    intro h p q col hcol
    have hN : n + 1 < 32 := lt_of_lt_of_eq h (show cfg0.N = 32 from N_0)
    by_cases h0 : (n + 1) % 8 = 0
    · have h1 : ¬(n + 1) % 8 = 7 := by omega
      rw [scratch_first m c ⟨n + 1, h⟩ h0 h1, Arith.update_apply, Arith.reset_apply,
        block_terms m c ⟨n + 1, h⟩ p q col hcol]
      show 0 + ∑ j : Fin 1024, term _ _ p col (1024 * ((n + 1) % 8) + j.val) = _
      rw [h0, show 1024 * (0 + 1) = 0 + 1024 from rfl, prefixSum_add_block, prefixSum_zero]
    · have hstep : (outsAt0 m c (n + 1) h).2
          = k0_pay2 (lhsBlk m c ⟨n + 1, h⟩) (matBlk m c ⟨n + 1, h⟩) (outsAt0 m c n (Nat.lt_of_succ_lt h)).2 := by
        by_cases h1 : (n + 1) % 8 = 7
        · exact scratch_last m c ⟨n + 1, h⟩ h0 h1
        · exact scratch_middle m c ⟨n + 1, h⟩ h0 h1
      rw [hstep, Arith.update_apply, ih (Nat.lt_of_succ_lt h) p q col (by omega),
        block_terms m c ⟨n + 1, h⟩ p q col hcol]
      show _ + ∑ j : Fin 1024, term _ _ p col (1024 * ((n + 1) % 8) + j.val) = _
      rw [show 1024 * ((n + 1) % 8) = 1024 * (n % 8 + 1) from by omega,
        show 1024 * ((n + 1) % 8 + 1) = 1024 * (n % 8 + 1) + 1024 from by omega, prefixSum_add_block]

/-- At the last point of a tile the output block holds, at `(p, q)`, the flattened result at `(p, col)`. -/
theorem block_out (c : Dev nD) (t : Fin cfg0.N) (h1 : t.val % 8 = 7) (p : Fin 8) (q : Fin 2048) (col : Fin 8192)
    (hcol : col.val = 2048 * (t.val / 8) + q.val) :
    (outsAt0 m c t.val t.isLt).1 (ix2 p q)
      = flatResult (lhsArr m c) (matArr m c) (thrArr m c) (cstArr m c) (ix2 p col) := by
  rw [out_last m c t (by omega) h1, Arith.epilogue_apply, scratch_after m c t.val t.isLt p q col hcol,
    cstBlk_apply m c t p q col hcol, thrBlk_apply m c t p q col hcol, h1]
  rfl

end Cert.KernelIdeal.Running

end
-- ==== Proof.Result.lean ====
/-
  From blocks to the array, and through the reshape after the region: the idealized kernel's result.

  The output window is written back only at the last point of each column tile (`t % 8 = 7`), and what is written there is
  the tile `2048 (t / 8) …` of the flattened result of the arrays the region finds (`written_back`). The four tiles cover the
  [8, 8192] output array — column `n` lies in tile `n / 2048`, written at point `8 (n / 2048) + 7` — so the array ends at the
  flattened result (`region_out`). The arrays the region finds are the row-major flattenings of the rank-3 arguments, and
  @main's last line un-flattens the output; position `(b, 0, n)` of a [8, 1, 8192] array and `(b, n)` of its [8, 8192]
  flattening are the same row-major position `8192 b + n`. So the program's result is the specification's `result` of its four
  arguments (`tail_eq`, `run`).
-/
import proofs.«139223_j43035572306630_1_alg».proof.Proof.Running
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Contraction Cert.KernelIdeal.Running

variable (m : (ℓ : Loc nD τ sig) → Buf (Elt Ideal) ℓ) (ρ : Dev nD → PrngReg)

/-- The output window is on tile `t / 8` of its array at point `t`. -/
theorem where4 : ∀ t : Fin cfg0.N, win0_4.index t 0 = 0 ∧ win0_4.index t 1 = t.val / 8 :=
  (by decide +kernel : ∀ t : Fin grid0.N, win0_4.index t 0 = 0 ∧ win0_4.index t 1 = t.val / 8)

/-- What the region's output array ends holding: the flattened result of the arrays the region finds. -/
abbrev regionOut (c : Dev nD) : Vec Ideal S8x8192 .f32 := flatResult (lhsArr m c) (matArr m c) (thrArr m c) (cstArr m c)

/-- What point `t` writes back, when it writes back, is its tile of `regionOut`. -/
theorem written_back (c : Dev nD) (t : Fin cfg0.N) (hf : (cfg0.win 4).flush t = true) :
    (dats m 0 c).flushed 4 t = ((cfg0.win 4).blk t).view.read (Elt Ideal) (regionOut m c) := by
  have h7 : t.val % 8 = 7 := (flush0_4 t).mp hf
  have hN : t.val < 32 := lt_of_lt_of_eq t.isLt (show cfg0.N = 32 from N_0)
  show (cfg0.win 4).cut (grid0.coords t) ((dats m 0 c).after 4 t) = _
  rw [after0_4]
  funext y
  obtain ⟨p, q, rfl⟩ : ∃ (p : Fin 8) (q : Fin 2048), y = ix2 p q := ⟨y 0, y 1, eq_ix2 y⟩
  have hcol : 2048 * (t.val / 8) + q.val < 8192 := by have := q.isLt; omega
  show (outsAt0 m c t.val t.isLt).1 (ix2 p q) = regionOut m c (((cfg0.win 4).blk t).view.emb (ix2 p q))
  rw [block_out m c t h7 p q ⟨_, hcol⟩ rfl]
  congr 1
  funext a
  apply Fin.ext
  match a with
  | ⟨0, _⟩ => show p.val = win0_4.index t 0 * 8 + 1 * p.val; rw [(where4 t).1]; omega
  | ⟨1, _⟩ => show 2048 * (t.val / 8) + q.val = win0_4.index t 1 * 2048 + 1 * q.val; rw [(where4 t).2]; omega

/-- An index of the output array is in point `t`'s tile iff each coordinate is in the tile's range on its axis. -/
theorem mem_tile (t : Fin cfg0.N) (i : S8x8192.Idx) :
    i ∈ ((cfg0.win 4).blk t).view.set ↔ ∀ a : Fin 2, win0_4.index t a * S8x2048.size a ≤ (i a).val ∧ (i a).val < win0_4.index t a * S8x2048.size a + S8x2048.size a := by
  show i ∈ ((View.whole main_v3).slice (win0_4.rect t)).set ↔ _
  rw [View.set_slice_whole, Rect.mem_set_unit]
  exact Iff.rfl

/-- The tiles written back cover the array, so it ends at `regionOut`. -/
theorem region_out (c : Dev nD) : (dats m 0 c).arrAt 4 cfg0.N = regionOut m c :=
  (dats m 0 c).arrAt_eq_of_cover 4 (regionOut m c) (written_back m c) fun i => by
    have hi0 : (i 0).val < 8 := (i 0).isLt
    have hi1 : (i 1).val < 8192 := (i 1).isLt
    have hN : cfg0.N = 32 := N_0
    refine ⟨⟨8 * ((i 1).val / 2048) + 7, by rw [hN]; omega⟩, (flush0_4 _).mpr (by show (8 * ((i 1).val / 2048) + 7) % 8 = 7; omega), ?_⟩
    rw [mem_tile]
    intro a
    match a with
    | ⟨0, _⟩ =>
      show win0_4.index _ 0 * 8 ≤ (i 0).val ∧ (i 0).val < win0_4.index _ 0 * 8 + 8
      rw [(where4 _).1]; omega
    | ⟨1, _⟩ =>
      show win0_4.index _ 1 * 2048 ≤ (i 1).val ∧ (i 1).val < win0_4.index _ 1 * 2048 + 2048
      rw [(where4 _).2]
      show (8 * ((i 1).val / 2048) + 7) / 8 * 2048 ≤ (i 1).val ∧ (i 1).val < (8 * ((i 1).val / 2048) + 7) / 8 * 2048 + 2048
      omega

/-! ## The reshapes around the region -/

/-- Flattening [8, 1, 8192] to [8, 8192], read at `(b, n)`. -/
theorem flatten_apply (x : S8x1x8192.Idx → EReal) (b : Fin 8) (n : Fin 8192) :
    shapeCast S8x8192 x shapeCasts_S8x1x8192_S8x8192 (ix2 b n) = x (ix3 b 0 n) :=
  shapeCast_apply x shapeCasts_S8x1x8192_S8x8192 (ix2 b n) (ix3 b 0 n) (by
    rw [Shape.rowMajor_val_three, Shape.rowMajor_val_two]
    show (b.val * 1 + 0) * 8192 + n.val = b.val * 8192 + n.val
    omega)

/-- Un-flattening [8, 8192] to [8, 1, 8192], read at `(b, o, n)`. -/
theorem unflatten_apply (y : S8x8192.Idx → EReal) (b : Fin 8) (o : Fin 1) (n : Fin 8192) :
    shapeCast S8x1x8192 y shapeCasts_S8x8192_S8x1x8192 (ix3 b o n) = y (ix2 b n) :=
  shapeCast_apply y shapeCasts_S8x8192_S8x1x8192 (ix3 b o n) (ix2 b n) (by
    rw [Shape.rowMajor_val_three, Shape.rowMajor_val_two]
    show b.val * 8192 + n.val = (b.val * 1 + o.val) * 8192 + n.val
    have := o.isLt
    omega)

/-- The arrays the region finds are the flattened arguments (the matrix is the argument itself). -/
theorem lhsArr_eq (c : Dev nD) :
    lhsArr m c = shapeCast S8x8192 (m ((c : Thread nD τ).loc main_arg0)) shapeCasts_S8x1x8192_S8x8192 := by
  show StableHlo.after hostOps0 (fun b => m (c, b)) (Proc.devRef .tc main_v0) = _
  after_results
  rfl
theorem thrArr_eq (c : Dev nD) :
    thrArr m c = shapeCast S8x8192 (m ((c : Thread nD τ).loc main_arg2)) shapeCasts_S8x1x8192_S8x8192 := by
  show StableHlo.after hostOps0 (fun b => m (c, b)) (Proc.devRef .tc main_v1) = _
  after_results
  rfl
theorem cstArr_eq (c : Dev nD) :
    cstArr m c = shapeCast S8x8192 (m ((c : Thread nD τ).loc main_arg3)) shapeCasts_S8x1x8192_S8x8192 := by
  show StableHlo.after hostOps0 (fun b => m (c, b)) (Proc.devRef .tc main_v2) = _
  after_results
  rfl
theorem matArr_eq (c : Dev nD) : matArr m c = m ((c : Thread nD τ).loc main_arg1) := V_main_arg1 m c

/-- The specification's result of the program's four arguments. -/
abbrev spec (c : Dev nD) : Buf (Elt Ideal) ((c : Thread nD τ).loc main_v4) :=
  result (m ((c : Thread nD τ).loc main_arg0)) (m ((c : Thread nD τ).loc main_arg1))
    (m ((c : Thread nD τ).loc main_arg2)) (m ((c : Thread nD τ).loc main_arg3))

/-- @main's result after the reshape that follows the region: the specification's. -/
theorem tail_eq (c : Dev nD) :
    Pipeline.afterTail₀ cfgs (dats m) 0 (V0 m) [hostOps1] c main_v4 = spec m c := by
  unfold Pipeline.afterTail₀
  show StableHlo.after hostOps1 _ (Proc.devRef .tc main_v4) = _
  after_results
  rw [(Pipeline.withArrays_arr spec0 launch0.win.arr_inj c _ _ 4).trans (region_out m c)]
  funext i
  obtain ⟨b, o, n, rfl⟩ : ∃ (b : Fin 8) (o : Fin 1) (n : Fin 8192), i = ix3 b o n := ⟨i 0, i 1, i 2, eq_ix3 i⟩
  show shapeCast S8x1x8192 (regionOut m c) shapeCasts_S8x8192_S8x1x8192 (ix3 b o n) = _
  rw [unflatten_apply]
  show flatResult (lhsArr m c) (matArr m c) (thrArr m c) (cstArr m c) (ix2 b n) = resultAt _ _ _ _ b n
  rw [matArr_eq]
  exact flatResult_eq _ _ _ _ _ _ _
    (fun b x => by rw [lhsArr_eq]; exact flatten_apply _ b x)
    (fun b n => by rw [thrArr_eq]; exact flatten_apply _ b n)
    (fun b n => by rw [cstArr_eq]; exact flatten_apply _ b n) b n

/-- THE RUN, read: the result at the specification of the arguments, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference computes the specification.

  Read one operation at a time at an index `(b, 0, n)`: the one contraction over the left operand's last axis and the matrix's
  first is the sum over `x` of `pre (b, 0, x) · w (x, n)`; then `cst` is added and `thr` subtracted at the same index; then the
  maximum with the broadcast zero word and the minimum with the broadcast word 0x3F666666, in that operand order: the clamp.
-/
import proofs.«139223_j43035572306630_1_alg».proof.Proof.Gen.ReferenceIdeal.Read
import proofs.«139223_j43035572306630_1_alg».proof.Proof.Contraction

noncomputable section

open Idealize.ShloMosaic Idealize.ShloMosaic.ValueIdx

namespace Cert.ReferenceIdeal.Spec

open Cert.ReferenceIdeal Cert.ReferenceIdeal.Read Cert.Contraction

/-- The contraction's left index at output `(b, o, n)` and position `k` is `(b, 0, k)` (the middle axis has one entry), -/
theorem lidx_eq (b : Fin 8) (o : Fin 1) (n k : Fin 8192) : lidx_main_v0 (ix3 b o n) k = ix3 b 0 k :=
  funext fun a => Fin.ext (by
    match a with
    | ⟨0, _⟩ => rfl
    | ⟨1, _⟩ => show o.val = 0; have := o.isLt; omega
    | ⟨2, _⟩ => rfl)

/-- and its right index is `(k, n)`. -/
theorem ridx_eq (b : Fin 8) (o : Fin 1) (n k : Fin 8192) : ridx_main_v0 (ix3 b o n) k = ix2 k n :=
  funext fun a => Fin.ext (by
    match a with
    | ⟨0, _⟩ => rfl
    | ⟨1, _⟩ => rfl)

/-- The reference's last stage is the specification's result of its four arguments. -/
theorem reference_eq (pre : (⟨S8x1x8192, .f32⟩ : BufTy).Contents (Elt Ideal)) (w : (⟨S8192x8192, .f32⟩ : BufTy).Contents (Elt Ideal))
    (thr cst : (⟨S8x1x8192, .f32⟩ : BufTy).Contents (Elt Ideal)) :
    val_main_v3 (F := Ideal) pre w thr cst = result pre w thr cst := by
  funext i
  obtain ⟨b, o, n, rfl⟩ : ∃ (b : Fin 8) (o : Fin 1) (n : Fin 8192), i = ix3 b o n := ⟨i 0, i 1, i 2, eq_ix3 i⟩
  obtain rfl : o = 0 := Subsingleton.elim _ _
  rw [val_main_v3_apply, val_main_call0_v4_apply, val_main_call0_v3_apply, val_main_cst_0_apply,
    val_main_call0_v2_apply, val_main_call0_v1_apply, val_main_call0_v0_apply, val_main_cst_apply,
    val_main_v2_apply, val_main_v1_apply, val_main_v0_apply]
  simp only [lidx_eq, ridx_eq]
  rfl

end Cert.ReferenceIdeal.Spec

end
-- ==== Proof.lean ====
/-
  Both programs compute, for a left operand `pre` [8, 1, 8192], a matrix `w` [8192, 8192] and arrays `thr`, `cst` [8, 1, 8192],

      min c (max 0 ((∑ x, pre (b, 0, x) · w (x, n)) + cst (b, 0, n) − thr (b, 0, n)))        (c the value of the word 0x3F666666)

  at every `(b, 0, n)`, on the extended reals. The reference does it in one contraction followed by an add, a subtract, a
  maximum and a minimum. The kernel flattens the rank-3 arrays, walks a 4 × 8 grid — four tiles of 2048 output columns, and
  for each tile eight runs of 1024 terms of the contraction —, keeps the running sum of a tile in a scratch block (zero
  before the first run, one block product added per point; rounding the operands to a narrower format is the identity here)
  and at the tile's last point stores the clamp of the sum plus `cst` minus `thr`; then un-flattens the output. A sum over
  8192 terms is the sum of its eight consecutive runs in any commutative monoid, so no finiteness of the inputs is used.

  The specification and the sum identity are in Proof/Contraction.lean; the body's arithmetic at an index in Proof/Payload.lean;
  what each control case leaves behind in Proof/Pieces.lean; the induction over the grid in Proof/Running.lean; the output
  array, the reshapes around the region and the kernel's run in Proof/Result.lean; the reference in Proof/Reference.lean.
  The idealization rewrote nothing, so `preserves` is trivial; the three frames are the generated ones (the reference's is
  its generated run with the result dropped).
-/
import proofs.«139223_j43035572306630_1_alg».proof.Defs
import proofs.«139223_j43035572306630_1_alg».proof.Proof.Gen.Kernel
import proofs.«139223_j43035572306630_1_alg».proof.Proof.Gen.Kernel.Skeleton
import proofs.«139223_j43035572306630_1_alg».proof.Proof.Gen.Kernel.Launch
import proofs.«139223_j43035572306630_1_alg».proof.Proof.Gen.Kernel.Points
import proofs.«139223_j43035572306630_1_alg».proof.Proof.Gen.Kernel.Frame
import proofs.«139223_j43035572306630_1_alg».proof.Proof.Gen.KernelIdeal
import proofs.«139223_j43035572306630_1_alg».proof.Proof.Gen.KernelIdeal.Skeleton
import proofs.«139223_j43035572306630_1_alg».proof.Proof.Gen.KernelIdeal.Launch
import proofs.«139223_j43035572306630_1_alg».proof.Proof.Gen.KernelIdeal.Points
import proofs.«139223_j43035572306630_1_alg».proof.Proof.Gen.KernelIdeal.Frame
import proofs.«139223_j43035572306630_1_alg».proof.Proof.Gen.ReferenceIdeal
import proofs.«139223_j43035572306630_1_alg».proof.Proof.Gen.ReferenceIdeal.Run
import proofs.«139223_j43035572306630_1_alg».proof.Proof.Gen.ReferenceIdeal.Read
import proofs.«139223_j43035572306630_1_alg».proof.Proof.Gen.Pre_finite_inputs
import Idealize.ShloMosaic.Adequacy
import Idealize.ShloMosaic.Init
import proofs.«139223_j43035572306630_1_alg».proof.Proof.Result
import proofs.«139223_j43035572306630_1_alg».proof.Proof.Reference

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the four arguments, both programs end with the specification's result of them. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Spec.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
